-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩

abbrev nD : Nat := 1
abbrev τ : Topo := Topo.v7x

variable {F : FTy → Type} [FloatOps F]

class Facts₀ : Prop where
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.RowProduct.lean ====
/-
  The product both programs compute, and the regrouping of its contraction sum.

  For x : [8192, 4096] and w : [4096, 4096] the entry at (b, o) is the sum over the 4096 contracted coordinates k of
  x[b, k] · w[o, k]: the rows of x against the rows of w. The contracted axis splits into four consecutive chunks of
  1024 coordinates, k = 1024·s + q. Addition on the extended reals is commutative and associative, so the sum taken
  chunk by chunk is the whole sum; nothing about finiteness is used.
-/
import Idealize.ShloMosaic.Lib.ValueIdx
import Mathlib.Algebra.BigOperators.Fin
import Mathlib.Logic.Equiv.Fin.Basic

noncomputable section

open scoped BigOperators
open Idealize.ShloMosaic Idealize.ShloMosaic.ValueIdx

namespace Cert.RowProduct

/-- The contracted coordinate `1024·(s mod 4) + q`: coordinate `q` of chunk `s mod 4`. -/
def chunkCoord (s : ℕ) (q : Fin 1024) : Fin 4096 :=
  ⟨1024 * (s % 4) + q.val, by have := q.isLt; have := Nat.mod_lt s (show 0 < 4 by decide); omega⟩

theorem chunkCoord_val (s : ℕ) (q : Fin 1024) : (chunkCoord s q).val = 1024 * (s % 4) + q.val := rfl

/-- Row `1024·(u mod 8) + r` of x: row `r` of row block `u mod 8`. -/
def rowCoord (u : ℕ) (r : Fin 1024) : Fin 8192 :=
  ⟨1024 * (u % 8) + r.val, by have := r.isLt; have := Nat.mod_lt u (show 0 < 8 by decide); omega⟩

theorem rowCoord_val (u : ℕ) (r : Fin 1024) : (rowCoord u r).val = 1024 * (u % 8) + r.val := rfl

/-- Chunks are counted modulo four: the chunk of `4·u + s` is the chunk of `s`. -/
theorem chunkCoord_add (u s : ℕ) (q : Fin 1024) : chunkCoord (4 * u + s) q = chunkCoord s q :=
  Fin.ext (by show 1024 * ((4 * u + s) % 4) + q.val = 1024 * (s % 4) + q.val; rw [Nat.mul_add_mod])

/-- A sum over the 4096 contracted coordinates is the sum over its four chunks of 1024, in any commutative monoid:
    `(s, q) ↦ 1024·s + q` is a bijection from 4 × 1024 onto 4096. -/
theorem sum_chunks {M : Type*} [AddCommMonoid M] (f : Fin 4096 → M) :
    ∑ s ∈ Finset.range 4, ∑ q : Fin 1024, f (chunkCoord s q) = ∑ k : Fin 4096, f k := by
  rw [Finset.sum_range (fun s => ∑ q : Fin 1024, f (chunkCoord s q))]
  have h := Equiv.sum_comp (finProdFinEquiv (m := 4) (n := 1024)) (fun k : Fin (4 * 1024) => f k)
  refine Eq.trans ?_ h
  rw [Fintype.sum_prod_type]
  refine Finset.sum_congr rfl fun a _ => Finset.sum_congr rfl fun q _ => congrArg f (Fin.ext ?_)
  show 1024 * (a.val % 4) + q.val = q.val + 1024 * a.val
  have := a.isLt
  rw [Nat.mod_eq_of_lt this]; omega

/-- The rows of `x` against the rows of `w`: entry (b, o) is `Σ_k x[b, k] · w[o, k]`. -/
def rowProduct (x : FVec Ideal ⟨2, ![8192, 4096]⟩ .f32) (w : FVec Ideal ⟨2, ![4096, 4096]⟩ .f32) :
    FVec Ideal ⟨2, ![8192, 4096]⟩ .f32 :=
  fun i => ∑ k : Fin 4096, x (ix2 (i 0) k) * w (ix2 (i 1) k)

end Cert.RowProduct

end
-- ==== Proof.CaseValues.lean ====
/-
  What one grid point leaves behind, case by case.

  A point of the (8, 4, 4) grid sees a [1024, 1024] block of x, a [1024, 1024] block of w and the accumulator
  scratch. At the first step of a contraction (k = 0) the body zeroes the accumulator, reads it back and stores
  "accumulator + block product"; at a middle step it stores "what the step before left + block product"; at the
  last step (k = 3) it does the same and then copies the accumulator into the output block. Each of these is one
  whole-block store (after the zeroing store, at k = 0), so what a buffer holds afterwards is that store's value.
-/
import proofs.«142423_j68015102099869_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValues

open Cert.KernelIdeal Cert.KernelIdeal.Gen

variable {F : FTy → Type} [FloatOps F]

/-- The whole-block rectangle starts at the origin. -/
theorem origin : (![0, 0] : Fin 2 → Nat) = fun _ => 0 := funext fun a => by fin_cases a <;> rfl

/-- First step of a contraction (k = 0): the accumulator is zeroed, read back, and ends at
    "zero block + product of the two blocks". -/
theorem scratch_first (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 x1 : Vec F S1024x1024 .f32) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x1024) origin]

/-- A middle step (k = 1, 2): the accumulator ends at "what the step before left + product of the two blocks". -/
theorem scratch_middle (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 x1 acc : Vec F S1024x1024 .f32) :
    sout0_B_0 c i a3 h3 a4 h4 a5 h5 a6 h6 hc0 hc1 x0 x1 acc = k0_pay2 x0 x1 acc := by
  unfold sout0_B_0
  rw [View.read_writes_eq_canon _ _ _ (scover0_B_0 c i a3 h3 a4 h4 a5 h5 a6 h6 hc0 hc1 x0 x1 acc)]
  unfold kernelRun0_B
  dsimp only
  sl_unfold_words
  rw [View.canon_unit_zero (S := S1024x1024) origin]
  simp only [View.readAt_eq_ld, h3.read_unread, h4.read_unread, h6.read_unread, View.ld_unit_zero (S := S1024x1024) origin]

/-- The last step (k = 3) leaves the same in the accumulator … -/
theorem scratch_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 acc : Vec F S1024x1024 .f32) :
    sout0_C_0 c i a3 h3 a4 h4 a5 h5 a6 h6 hc0 hc1 x0 x1 acc = k0_pay2 x0 x1 acc := by
  unfold sout0_C_0
  rw [View.read_writes_eq_canon _ _ _ (scover0_C_0 c i a3 h3 a4 h4 a5 h5 a6 h6 hc0 hc1 x0 x1 acc)]
  unfold kernelRun0_C
  dsimp only
  sl_unfold_words
  rw [View.canon_unit_zero (S := S1024x1024) origin]
  simp only [View.readAt_eq_ld, h3.read_unread, h4.read_unread, h6.read_unread, View.ld_unit_zero (S := S1024x1024) origin]

/-- … and copies it into the output block: the accumulator read back after its store. -/
theorem output_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 acc : Vec F S1024x1024 .f32) :
    out0_C_2 c i a3 h3 a4 h4 a5 h5 a6 h6 hc0 hc1 x0 x1 acc = k0_pay2 x0 x1 acc := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero (S := S1024x1024) origin, View.readCov_unit_zero (S := S1024x1024) _ origin]
  simp only [View.readAt_eq_ld, h3.read_unread, h4.read_unread, h6.read_unread, View.ld_unit_zero (S := S1024x1024) origin]

end Cert.KernelIdeal.CaseValues

end
-- ==== Proof.BlockProduct.lean ====
/-
  The body's two stored values, entry by entry, on the extended reals.

  The zeroing store writes 0 everywhere. The accumulating store writes, at row r and column c of the block,
  "accumulator[r, c] + Σ_q xblock[r, q] · wblock[c, q]": the matrix unit contracts the second axis of both blocks
  (rows of x against rows of w) into a zero start value, and the narrowing of the blocks to sixteen bits before the
  product changes nothing on the extended reals.
-/
import proofs.«142423_j68015102099869_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.ShloMosaic.ValueIdx

namespace Cert.KernelIdeal.BlockProduct

open Cert.KernelIdeal Cert.KernelIdeal.Gen

/-- The zeroing store's value is 0 at every entry. -/
theorem zeroBlock_apply (j : S1024x1024.Idx) : k0_pay1 (F := Ideal) j = 0 := by
  unfold k0_pay1
  simp only [shapeCast_self]
  exact Ideal.ofBits_zero_f32

/-! The product's operand indices: the left operand is read at (row, contracted), the right at (column, contracted). -/

theorem lhs_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_contracted (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_contracted (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The block product into the zero start value, at row r and column c: Σ_q a[r, q] · b[c, q]. -/
theorem product_apply (a b : FVec Ideal S1024x1024 .bf16) (r c : Fin 1024) :
    matmul dot_S1024x1024_S1024x1024_S1024x1024_1_1_0_0_n_n none a b (constant S1024x1024 .f32 0x00000000#32) (ix2 r c)
      = ∑ q : Fin 1024, a (ix2 r q) * b (ix2 c q) := by
  simp only [matmul]
  rw [Ideal.matmul_constant_zero_apply, ← Equiv.sum_comp (contrEquiv1 dot_S1024x1024_S1024x1024_S1024x1024_1_1_0_0_n_n 1024 rfl rfl).symm]
  refine Finset.sum_congr rfl fun q _ => ?_
  have hq := contrEquiv1_symm_val dot_S1024x1024_S1024x1024_S1024x1024_1_1_0_0_n_n 1024 rfl rfl q
  have el : dot_S1024x1024_S1024x1024_S1024x1024_1_1_0_0_n_n.lhsIdx (ix2 r c) ((contrEquiv1 dot_S1024x1024_S1024x1024_S1024x1024_1_1_0_0_n_n 1024 rfl rfl).symm q) = ix2 r q := funext fun d => Fin.ext (by
    match d with
    | ⟨0, _⟩ => exact lhs_row _ _
    | ⟨1, _⟩ => exact (lhs_contracted _ _).trans hq)
  have er : dot_S1024x1024_S1024x1024_S1024x1024_1_1_0_0_n_n.rhsIdx (ix2 r c) ((contrEquiv1 dot_S1024x1024_S1024x1024_S1024x1024_1_1_0_0_n_n 1024 rfl rfl).symm q) = ix2 c q := funext fun d => Fin.ext (by
    match d with
    | ⟨0, _⟩ => exact rhs_row _ _
    | ⟨1, _⟩ => exact (rhs_contracted _ _).trans hq)
  rw [el, er]

/-- The accumulating store's value at row r, column c: the accumulator there plus the blocks' product there. -/
theorem accumulate_apply (xb wb acc : Vec Ideal S1024x1024 .f32) (r c : Fin 1024) :
    k0_pay2 (F := Ideal) xb wb acc (ix2 r c) = acc (ix2 r c) + ∑ q : Fin 1024, xb (ix2 r q) * wb (ix2 c q) := by
  unfold k0_pay2
  simp only [shapeCast_self]
  rw [addf_apply, product_apply]
  rfl

end Cert.KernelIdeal.BlockProduct

end
-- ==== Proof.Accumulation.lean ====
/-
  What the kernel's result array holds after the run: the rows of x against the rows of w.

  The 128 grid points are numbered t = 16·i + 4·j + k for the row block i of x, the row block j of w and the
  contraction chunk k. Point t reads x[1024·i + r, 1024·k + q] and w[1024·j + c, 1024·k + q]. The accumulator after
  point t is the sum, over the chunks 0 … k of the same (i, j), of the chunk's block product (plus the zero it was reset
  to): the fold of "reset at k = 0, add at k > 0" unrolled. At k = 3 that is the sum over all four chunks, which is the
  sum over the whole contracted axis; the point stores it into block (i, j) of the result, and these blocks tile the
  result array.
-/
import proofs.«142423_j68015102099869_1_alg».proof.Proof.Gen.KernelIdeal.Value
import proofs.«142423_j68015102099869_1_alg».proof.Proof.RowProduct
import proofs.«142423_j68015102099869_1_alg».proof.Proof.CaseValues
import proofs.«142423_j68015102099869_1_alg».proof.Proof.BlockProduct

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.RowProduct

variable (m : (ℓ : Loc nD τ sig) → Buf (Elt Ideal) ℓ) (ρ : Dev nD → PrngReg)

/-- The two argument arrays and the two input blocks of a point, at their literal shapes. -/
abbrev xarr (c : Dev nD) : FVec Ideal S8192x4096 .f32 := m ((c : Thread nD τ).loc main_arg0)
abbrev warr (c : Dev nD) : FVec Ideal S4096x4096 .f32 := m ((c : Thread nD τ).loc main_arg1)
abbrev xblk (c : Dev nD) (t : Fin cfg0.N) : Vec Ideal S1024x1024 .f32 := iblk m c 0 t
abbrev wblk (c : Dev nD) (t : Fin cfg0.N) : Vec Ideal S1024x1024 .f32 := iblk m c 1 t

/-- Which block each window is on at point t = 16·i + 4·j + k: x at (i, k), w at (j, k), the result at (i, j). -/
theorem block_indices : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4 :=
  (by decide +kernel : ∀ t : Fin grid0.N, _)

/-- The x block of point t, at (r, q), is x at row 1024·(t/16) + r and contracted coordinate 1024·(t mod 4) + q. -/
theorem xblk_apply (c : Dev nD) (t : Fin cfg0.N) (r q : Fin 1024) :
    xblk m c t (ix2 r q) = xarr m c (ix2 (rowCoord (t.val / 16) r) (chunkCoord t.val q)) := by
  obtain ⟨e0, e1, -, -, -, -⟩ := block_indices t
  have ht : t.val < 128 := lt_of_lt_of_eq t.isLt N_0
  show m ((c : Thread nD τ).loc main_arg0) (((cfg0.win 0).blk t).view.emb (ix2 r q)) = m ((c : Thread nD τ).loc main_arg0) _
  congr 1
  funext a
  apply Fin.ext
  match a with
  | ⟨0, _⟩ => show win0_0.index t (0 : Fin 2) * 1024 + 1 * r.val = 1024 * (t.val / 16 % 8) + r.val; rw [e0]; omega
  | ⟨1, _⟩ => show win0_0.index t (1 : Fin 2) * 1024 + 1 * q.val = 1024 * (t.val % 4) + q.val; rw [e1]; omega

/-- The w block of point t, at (c', q), is w at row 1024·((t/4) mod 4) + c' and the same contracted coordinate. -/
theorem wblk_apply (c : Dev nD) (t : Fin cfg0.N) (c' q : Fin 1024) :
    wblk m c t (ix2 c' q) = warr m c (ix2 (chunkCoord (t.val / 4) c') (chunkCoord t.val q)) := by
  obtain ⟨-, -, e2, e3, -, -⟩ := block_indices t
  show m ((c : Thread nD τ).loc main_arg1) (((cfg0.win 1).blk t).view.emb (ix2 c' q)) = m ((c : Thread nD τ).loc main_arg1) _
  congr 1
  funext a
  apply Fin.ext
  match a with
  | ⟨0, _⟩ => show win0_1.index t (0 : Fin 2) * 1024 + 1 * c'.val = 1024 * (t.val / 4 % 4) + c'.val; rw [e2]; omega
  | ⟨1, _⟩ => show win0_1.index t (1 : Fin 2) * 1024 + 1 * q.val = 1024 * (t.val % 4) + q.val; rw [e3]; omega

/-- What point n adds to the accumulator at (r, c'): its chunk of the contraction of row 1024·(n/16) + r of x
    against row 1024·((n/4) mod 4) + c' of w. Stated for every natural n, through the residues. -/
def addend (c : Dev nD) (n : ℕ) : S1024x1024.Idx → EReal := fun i =>
  ∑ q : Fin 1024, xarr m c (ix2 (rowCoord (n / 16) (i 0)) (chunkCoord n q)) * warr m c (ix2 (chunkCoord (n / 4) (i 1)) (chunkCoord n q))

/-- The blocks' product at point n is that addend. -/
theorem product_eq_addend (c : Dev nD) (n : ℕ) (h : n < cfg0.N) (r c' : Fin 1024) :
    (∑ q : Fin 1024, xblk m c (⟨n, h⟩ : Fin cfg0.N) (ix2 r q) * wblk m c (⟨n, h⟩ : Fin cfg0.N) (ix2 c' q)) = addend m c n (ix2 r c') :=
  Finset.sum_congr rfl fun q _ => by rw [xblk_apply, wblk_apply]

/-- A point with k = 0 leaves "0 + its addend" in the accumulator, whatever was there. -/
theorem step_first (c : Dev nD) (n : ℕ) (h : n < cfg0.N) (hn : n % 4 = 0) (acc : Vec Ideal S1024x1024 .f32) (i : S1024x1024.Idx) :
    Value.scAt0_0 m c n h acc i = 0 + addend m c n i := by
  have h1 : ¬n % 4 = 3 := by omega
  obtain ⟨r, c', rfl⟩ : ∃ (r c' : Fin 1024), i = ix2 r c' := ⟨i 0, i 1, eq_ix2 i⟩
  unfold Value.scAt0_0
  rw [dif_pos hn, dif_neg h1]
  refine (congrFun (CaseValues.scratch_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) ((hcond0_0 (⟨n, h⟩ : Fin cfg0.N)).mpr hn) (fun h' => h1 ((hcond0_1 (⟨n, h⟩ : Fin cfg0.N)).mp h')) (iblk m c 0 (⟨n, h⟩ : Fin cfg0.N)) (iblk m c 1 (⟨n, h⟩ : Fin cfg0.N))) (ix2 r c')).trans ?_
  refine (BlockProduct.accumulate_apply (xblk m c (⟨n, h⟩ : Fin cfg0.N)) (wblk m c (⟨n, h⟩ : Fin cfg0.N)) (k0_pay1 (F := Ideal)) r c').trans ?_
  rw [BlockProduct.zeroBlock_apply, product_eq_addend]

/-- A point with k > 0 leaves "what was there + its addend". -/
theorem step_later (c : Dev nD) (n : ℕ) (h : n < cfg0.N) (hn : ¬n % 4 = 0) (acc : Vec Ideal S1024x1024 .f32) (i : S1024x1024.Idx) :
    Value.scAt0_0 m c n h acc i = acc i + addend m c n i := by
  obtain ⟨r, c', rfl⟩ : ∃ (r c' : Fin 1024), i = ix2 r c' := ⟨i 0, i 1, eq_ix2 i⟩
  unfold Value.scAt0_0
  rw [dif_neg hn]
  by_cases h1 : n % 4 = 3
  · rw [dif_pos h1]
    refine (congrFun (CaseValues.scratch_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) (fun h' => hn ((hcond0_0 (⟨n, h⟩ : Fin cfg0.N)).mp h')) ((hcond0_1 (⟨n, h⟩ : Fin cfg0.N)).mpr h1) (iblk m c 0 (⟨n, h⟩ : Fin cfg0.N)) (iblk m c 1 (⟨n, h⟩ : Fin cfg0.N)) acc) (ix2 r c')).trans ?_
    refine (BlockProduct.accumulate_apply (xblk m c (⟨n, h⟩ : Fin cfg0.N)) (wblk m c (⟨n, h⟩ : Fin cfg0.N)) acc r c').trans ?_
    rw [product_eq_addend]
  · rw [dif_neg h1]
    refine (congrFun (CaseValues.scratch_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) (fun h' => hn ((hcond0_0 (⟨n, h⟩ : Fin cfg0.N)).mp h')) (fun h' => h1 ((hcond0_1 (⟨n, h⟩ : Fin cfg0.N)).mp h')) (iblk m c 0 (⟨n, h⟩ : Fin cfg0.N)) (iblk m c 1 (⟨n, h⟩ : Fin cfg0.N)) acc) (ix2 r c')).trans ?_
    refine (BlockProduct.accumulate_apply (xblk m c (⟨n, h⟩ : Fin cfg0.N)) (wblk m c (⟨n, h⟩ : Fin cfg0.N)) acc r c').trans ?_
    rw [product_eq_addend]

/-- The accumulator after point t: zero plus the addends of the points of its contraction so far,
    4·(t/4) … t. -/
theorem accumulator_after (c : Dev nD) (t : Fin cfg0.N) (i : S1024x1024.Idx) :
    (outsAt0 m c t.val t.isLt).2 i = 0 + ∑ s ∈ Finset.range (t.val % 4 + 1), addend m c (4 * (t.val / 4) + s) i := by
  rw [Value.soutsAt0_0_eq m c t]
  exact Pipeline.accAt_add_apply _ _ (fun _ => (0 : EReal)) (addend m c) (4 * (t.val / 4)) 3
    (fun h i => step_first m c _ h (Nat.mul_mod_right 4 _) _ i)
    (fun n h acc i hb he => step_later m c n h (by omega) acc i)
    (t.val % 4) (by omega) _ i

/-- At the last step of a contraction (k = 3) the output block receives the accumulator. -/
theorem stored_eq_accumulator (c : Dev nD) (t : Fin cfg0.N) (h0 : ¬t.val % 4 = 0) (h3 : t.val % 4 = 3) :
    (outsAt0 m c t.val t.isLt).1 = (outsAt0 m c t.val t.isLt).2 := by
  rw [outsAt0_C m c t h0 h3]
  dsimp only
  exact (CaseValues.output_last (F := Ideal) c (grid0.coords t) (ms0_0 t) (hs0_0 t) (ms0_1 t) (hs0_1 t) (ms0_2 t) (hs0_2 t) scM0_0 (Memref.isWhole_whole _) (fun h' => h0 ((hcond0_0 t).mp h')) ((hcond0_1 t).mpr h3) (iblk m c 0 t) (iblk m c 1 t) (outsAt0 m c (t.val - 1) (Nat.lt_of_le_of_lt (Nat.sub_le _ _) t.isLt)).2).trans
    (CaseValues.scratch_last (F := Ideal) c (grid0.coords t) (ms0_0 t) (hs0_0 t) (ms0_1 t) (hs0_1 t) (ms0_2 t) (hs0_2 t) scM0_0 (Memref.isWhole_whole _) (fun h' => h0 ((hcond0_0 t).mp h')) ((hcond0_1 t).mpr h3) (iblk m c 0 t) (iblk m c 1 t) (outsAt0 m c (t.val - 1) (Nat.lt_of_le_of_lt (Nat.sub_le _ _) t.isLt)).2).symm

/-- So the block stored at point t = 16·i + 4·j + 3 holds, at (r, c'), the whole contraction of row 1024·i + r of x
    against row 1024·j + c' of w: the four chunks' sums are the sum over the contracted axis. -/
theorem stored_apply (c : Dev nD) (t : Fin cfg0.N) (h0 : ¬t.val % 4 = 0) (h3 : t.val % 4 = 3) (r c' : Fin 1024) :
    (outsAt0 m c t.val t.isLt).1 (ix2 r c')
      = rowProduct (xarr m c) (warr m c) (ix2 (rowCoord (t.val / 16) r) (chunkCoord (t.val / 4) c')) := by
  rw [stored_eq_accumulator m c t h0 h3, accumulator_after m c t (ix2 r c'), h3, zero_add]
  unfold rowProduct
  rw [← sum_chunks (fun k => xarr m c (ix2 (rowCoord (t.val / 16) r) k) * warr m c (ix2 (chunkCoord (t.val / 4) c') k))]
  refine Finset.sum_congr rfl fun s hs => ?_
  have hs4 : s < 4 := Finset.mem_range.mp hs
  unfold addend
  refine Finset.sum_congr rfl fun q _ => ?_
  have e16 : (4 * (t.val / 4) + s) / 16 = t.val / 16 := by omega
  have e4 : (4 * (t.val / 4) + s) / 4 = t.val / 4 := by omega
  rw [e16, e4, chunkCoord_add]

/-- An index of the result array is in point t's block iff each coordinate is in the block's range on its axis. -/
theorem mem_block (t : Fin cfg0.N) (i : S8192x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- What a writing point writes back is its block of the product of the argument arrays. -/
theorem flushed_eq (c : Dev nD) (t : Fin cfg0.N) (hf : (cfg0.win 2).flush t = true) :
    (dats m 0 c).flushed 2 t = ((cfg0.win 2).blk t).view.read (Elt Ideal) (rowProduct (xarr m c) (warr m c)) := by
  have h3 : t.val % 4 = 3 := (flush0_2 t).mp hf
  have h0 : ¬t.val % 4 = 0 := by omega
  have ht : t.val < 128 := lt_of_lt_of_eq t.isLt N_0
  obtain ⟨-, -, -, -, e4, e5⟩ := block_indices t
  rw [Value.flushed2 m c t]
  funext y
  show (outsAt0 m c t.val t.isLt).1 y = rowProduct (xarr m c) (warr m c) (((cfg0.win 2).blk t).view.emb y)
  obtain ⟨r, c', rfl⟩ : ∃ (r c' : Fin 1024), y = ix2 r c' := ⟨y 0, y 1, eq_ix2 y⟩
  rw [stored_apply m c t h0 h3 r c']
  congr 1
  funext a
  apply Fin.ext
  match a with
  | ⟨0, _⟩ => show 1024 * (t.val / 16 % 8) + r.val = win0_2.index t (0 : Fin 2) * 1024 + 1 * r.val; rw [e4]; omega
  | ⟨1, _⟩ => show 1024 * (t.val / 4 % 4) + c'.val = win0_2.index t (1 : Fin 2) * 1024 + 1 * c'.val; rw [e5]; omega

/-- Every entry (b, o) of the result lies in the block written at point 16·(b / 1024) + 4·(o / 1024) + 3. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 128 := N_0
  have hlt : 16 * ((i 0).val / 1024) + 4 * ((i 1).val / 1024) + 3 < cfg0.N := by rw [hN]; omega
  obtain ⟨-, -, -, -, e4, e5⟩ := block_indices ⟨_, hlt⟩
  refine ⟨⟨_, hlt⟩, (flush0_2 _).mpr (by show (16 * ((i 0).val / 1024) + 4 * ((i 1).val / 1024) + 3) % 4 = 3; omega), ?_⟩
  rw [mem_block]
  intro a
  match a with
  | ⟨0, _⟩ =>
    show win0_2.index ⟨_, hlt⟩ (0 : Fin 2) * 1024 ≤ (i 0).val ∧ (i 0).val < win0_2.index ⟨_, hlt⟩ (0 : Fin 2) * 1024 + 1024
    rw [e4]
    show (16 * ((i 0).val / 1024) + 4 * ((i 1).val / 1024) + 3) / 16 * 1024 ≤ (i 0).val ∧ (i 0).val < (16 * ((i 0).val / 1024) + 4 * ((i 1).val / 1024) + 3) / 16 * 1024 + 1024
    omega
  | ⟨1, _⟩ =>
    show win0_2.index ⟨_, hlt⟩ (1 : Fin 2) * 1024 ≤ (i 1).val ∧ (i 1).val < win0_2.index ⟨_, hlt⟩ (1 : Fin 2) * 1024 + 1024
    rw [e5]
    show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024
    omega

/-- The result array after the run is the product of the argument arrays. -/
theorem result_eq (c : Dev nD) : (dats m 0 c).arrAt 2 cfg0.N = rowProduct (xarr m c) (warr m c) :=
  (dats m 0 c).arrAt_eq_of_cover 2 (rowProduct (xarr m c) (warr m c)) (flushed_eq m c) covered

/-- The kernel's run: it terminates with the result array at the product and the arguments unchanged. -/
theorem run : θ_run defs (onTc (τ := τ) (main (F := Ideal))) ⟨m, fun _ => 0, ρ⟩ fun r => ∀ c : Dev nD,
      r.2.mem ((c : Thread nD τ).loc main_v0) = rowProduct (xarr m c) (warr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_eq m c), (h c).2⟩) (Value.run_blocks m ρ)

end Cert.KernelIdeal.Result

end
-- ==== Proof.ReferenceProduct.lean ====
/-
  The reference's result is the same product.

  The reference is one `dot_general` contracting the second axis of x with the second axis of w. On the extended reals
  its entry at (b, o) is Σ_k x[b, k] · w[o, k] over the 4096 contracted coordinates, read off the generated
  index-by-index form of the operation.
-/
import proofs.«142423_j68015102099869_1_alg».proof.Proof.Gen.ReferenceIdeal.Read
import proofs.«142423_j68015102099869_1_alg».proof.Proof.RowProduct

noncomputable section

open scoped BigOperators
open Idealize.ShloMosaic Idealize.ShloMosaic.TcCoe Idealize.ShloMosaic.ValueIdx

namespace Cert.ReferenceIdeal.Product

open Cert.ReferenceIdeal Cert.ReferenceIdeal.Gen Cert.RowProduct

/-- The host's contraction of x and w is `rowProduct x w`. -/
theorem reference_eq (x : FVec Ideal S8192x4096 .f32) (w : FVec Ideal S4096x4096 .f32) :
    Host.dotGeneral dot_S8192x4096_S4096x4096_S8192x4096_1_1_0_0_n_n none x w = rowProduct x w := by
  funext i
  rw [Read.val_main_v0_eq, Read.val_main_v0_apply]
  unfold rowProduct
  refine Finset.sum_congr rfl fun k _ => ?_
  have el : Read.lidx_main_v0 i k = ix2 (i 0) k := funext fun a => Fin.ext (by
    match a with
    | ⟨0, _⟩ => rfl
    | ⟨1, _⟩ => rfl)
  have er : Read.ridx_main_v0 i k = ix2 (i 1) k := funext fun a => Fin.ext (by
    match a with
    | ⟨0, _⟩ => rfl
    | ⟨1, _⟩ => rfl)
  rw [el, er]
  rfl

end Cert.ReferenceIdeal.Product

end
-- ==== Proof.lean ====
/-
  The certificate of the tiled product kernel against the one-line reference.

  Kernel: out = x · wᵀ for x : [8192, 4096] and w : [4096, 4096], on an (8, 4, 4) grid. Each point multiplies a
  [1024, 1024] block of x by a [1024, 1024] block of w (contracting the second axis of both), adds the product into
  an accumulator that is zeroed at the first of the four contraction steps, and at the fourth step stores the
  accumulator into the output block. The third argument (a bias vector) is not read by either program.
  Reference: one contraction of the second axis of x with the second axis of w.

  On the extended reals both compute, at (b, o), the sum over the 4096 contracted coordinates of x[b, k] · w[o, k].
  The kernel takes that sum in four chunks of 1024, starting from zero; the narrowing of the blocks to sixteen bits
  before the product is the identity there. Regrouping a finite sum uses only commutativity and associativity of
  addition, which hold on the extended reals without any finiteness assumption, so the precondition is not opened.

    RowProduct        the product as a function of the two arrays; a sum over 4096 is the sum over 4 chunks of 1024
    CaseValues        what each of the body's three control cases leaves in the accumulator and the output block
    BlockProduct      the body's two stored values entry by entry: zero, and accumulator + block product
    Accumulation      the accumulator after any point as zero plus the chunk products so far; the stored block at the
                      last step is the block of the product; the blocks tile the result; the kernel's run
    ReferenceProduct  the reference's contraction is the same function

  The three frames are the generated ones (the reference's is its generated run with the result dropped); the
  idealization rewrote nothing, so `preserves` has nothing to state.
-/
import proofs.«142423_j68015102099869_1_alg».proof.Defs
import proofs.«142423_j68015102099869_1_alg».proof.Proof.Gen.Kernel
import proofs.«142423_j68015102099869_1_alg».proof.Proof.Gen.Kernel.Skeleton
import proofs.«142423_j68015102099869_1_alg».proof.Proof.Gen.Kernel.Launch
import proofs.«142423_j68015102099869_1_alg».proof.Proof.Gen.Kernel.Points
import proofs.«142423_j68015102099869_1_alg».proof.Proof.Gen.Kernel.Frame
import proofs.«142423_j68015102099869_1_alg».proof.Proof.Gen.KernelIdeal
import proofs.«142423_j68015102099869_1_alg».proof.Proof.Gen.KernelIdeal.Skeleton
import proofs.«142423_j68015102099869_1_alg».proof.Proof.Gen.KernelIdeal.Launch
import proofs.«142423_j68015102099869_1_alg».proof.Proof.Gen.KernelIdeal.Points
import proofs.«142423_j68015102099869_1_alg».proof.Proof.Gen.KernelIdeal.Frame
import proofs.«142423_j68015102099869_1_alg».proof.Proof.Gen.ReferenceIdeal
import proofs.«142423_j68015102099869_1_alg».proof.Proof.Gen.KernelIdeal.Value
import proofs.«142423_j68015102099869_1_alg».proof.Proof.Gen.ReferenceIdeal.Run
import proofs.«142423_j68015102099869_1_alg».proof.Proof.Gen.ReferenceIdeal.Read
import proofs.«142423_j68015102099869_1_alg».proof.Proof.Gen.Pre_finite_inputs
import proofs.«142423_j68015102099869_1_alg».proof.Proof.Accumulation
import proofs.«142423_j68015102099869_1_alg».proof.Proof.ReferenceProduct
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From arguments that agree, the kernel's result array ends at the product of x with the transpose of w
    (`Result.run`), and the reference's result is that same function of the same arrays (`reference_eq`). -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1]
  exact Cert.ReferenceIdeal.Product.reference_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
